-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S16384x4096 .f32) (main_arg1 : FVec F S4096x4096 .f32) (main_arg2 : FVec F S4096 .f32) (main_arg3 : FVec F S4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S16384x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg2 : BitVec 32 := BitVec.ofNat 32 (i 2).val
  let c15_i32 : BitVec 32 := 15#32
  let v15 : BitVec 1 := Scalar.cmpi .eq arg2 c15_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x4096.size a
  hwx0_0 : ∀ i : grid0.Coords, EltTy.bits .f32 = 32 ∨ (Rect.block (s := S16384x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .f32 = 32 ∨ (Rect.block (s := S4096x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x4096.size a
  hwx0_4 : ∀ i : grid0.Coords, EltTy.bits .f32 = 32 ∨ (Rect.block (s := S16384x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.Pieces.lean ====
/-
  What one grid point leaves in the accumulator and in the output block, as values of what it found.

  At the first point of a run of 16 the body stores the zero block into the accumulator, reads it back, and stores the
  step of it; at every later point it stores the step of what the point before left; at the last point it also stores
  into the output block the output value of the accumulator it has just written.  Each of these is the body's last
  covering store into the buffer, read through whole buffers.
-/
import proofs.«123429_j52209622450452_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later point that is not the last: the accumulator ends at the step of what it held. -/
theorem scratch_B (c : Dev nD) (i : grid0.Coords) (a3 : Memref sig .tc .vmem S2048x256 .f32) (h3 : a3.IsWhole) (a4 : Memref sig .tc .vmem S1024x256 .f32) (h4 : a4.IsWhole) (a5 : Memref sig .tc .vmem S1024x256 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : ¬cond0_1 i)
    (x0 : Vec F S2048x256 .f32) (x1 : Vec F S1024x256 .f32) (x2 : Vec F S1024x256 .f32) (x3 : Vec F S1x1024 .f32) (xs0 : Vec F S2048x1024 .f32) :
    sout0_B_0 c i a3 h3 a4 h4 a5 h5 a6 h6 a7 h7 a8 h8 hc0 hc1 x0 x1 x2 x3 xs0 = k0_pay2 x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h8.read_unread,
    View.ld_unit_zero (S := S2048x256) hz, View.ld_unit_zero (S := S1024x256) hz, View.ld_unit_zero (S := S2048x1024) hz]

/-- The last point of a run: the accumulator ends at the step of what it held, -/
theorem scratch_C (c : Dev nD) (i : grid0.Coords) (a3 : Memref sig .tc .vmem S2048x256 .f32) (h3 : a3.IsWhole) (a4 : Memref sig .tc .vmem S1024x256 .f32) (h4 : a4.IsWhole) (a5 : Memref sig .tc .vmem S1024x256 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x256 .f32) (x1 : Vec F S1024x256 .f32) (x2 : Vec F S1024x256 .f32) (x3 : Vec F S1x1024 .f32) (xs0 : Vec F S2048x1024 .f32) :
    sout0_C_0 c i a3 h3 a4 h4 a5 h5 a6 h6 a7 h7 a8 h8 hc0 hc1 x0 x1 x2 x3 xs0 = k0_pay2 x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h8.read_unread,
    View.ld_unit_zero (S := S2048x256) hz, View.ld_unit_zero (S := S1024x256) hz, View.ld_unit_zero (S := S2048x1024) hz]

/-- and the output block at the output value of that accumulator and the bias block. -/
theorem output_C (c : Dev nD) (i : grid0.Coords) (a3 : Memref sig .tc .vmem S2048x256 .f32) (h3 : a3.IsWhole) (a4 : Memref sig .tc .vmem S1024x256 .f32) (h4 : a4.IsWhole) (a5 : Memref sig .tc .vmem S1024x256 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x256 .f32) (x1 : Vec F S1024x256 .f32) (x2 : Vec F S1024x256 .f32) (x3 : Vec F S1x1024 .f32) (xs0 : Vec F S2048x1024 .f32) :
    out0_C_4 c i a3 h3 a4 h4 a5 h5 a6 h6 a7 h7 a8 h8 hc0 hc1 x0 x1 x2 x3 xs0 = k0_pay3 (k0_pay2 x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.readCov_unit_zero (S := S2048x1024) _ hz,
    View.ld_unit_zero (S := S2048x256) hz, View.ld_unit_zero (S := S1024x256) hz, View.ld_unit_zero (S := S1x1024) hz,
    View.ld_unit_zero (S := S2048x1024) hz]

/-- The first point of a run: the accumulator ends at the step of the reset value. -/
theorem scratch_A (c : Dev nD) (i : grid0.Coords) (a3 : Memref sig .tc .vmem S2048x256 .f32) (h3 : a3.IsWhole) (a4 : Memref sig .tc .vmem S1024x256 .f32) (h4 : a4.IsWhole) (a5 : Memref sig .tc .vmem S1024x256 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : cond0_0 i) (hc1 : ¬cond0_1 i)
    (x0 : Vec F S2048x256 .f32) (x1 : Vec F S1024x256 .f32) (x2 : Vec F S1024x256 .f32) (x3 : Vec F S1x1024 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread,
    View.ld_unit_zero (S := S2048x256) hz, View.ld_unit_zero (S := S1024x256) hz]

end Cert.KernelIdeal.Pieces

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.Payloads.lean ====
/-
  The kernel body's three stored values at the ideal instance, read at one entry of the [2048, 1024] accumulator block.

  The reset stores the zero block.  The step stores, at entry (p, q), what the accumulator held there plus the product of
  row p of the x block with row q of the (w · mask) block over the 256 positions of the block's stretch of the shared
  axis: the narrowing to bf16 is the identity on extended reals, and the product into a zero accumulator is the plain sum.
  The output stores the accumulator plus the bias row broadcast down the 2048 rows.
-/
import proofs.«123429_j52209622450452_1_alg».proof.Proof.Gen.KernelIdeal.Skeleton
import proofs.«123429_j52209622450452_1_alg».proof.Proof.LibDotRows
import Idealize.ShloMosaic.Lib.Pipeline.Value
import Idealize.ShloMosaic.Lib.ValueIdx
import Idealize.ShloMosaic.PureOps.Ideal.Laws

noncomputable section

open scoped BigOperators

namespace Cert.KernelIdeal.Step

open Cert.KernelIdeal Cert.KernelIdeal.Gen Idealize.ShloMosaic Idealize.ShloMosaic.ValueIdx

/-- The body's product contracts the second axis of both blocks: rows of x against rows of w · mask. -/
theorem dot_rowsRows :
    Cert.Lib.DotRows.RowsRows (n := 2048) (K := 256) (c := 1024) dot_S2048x256_S1024x256_S2048x1024_1_1_0_0_n_n :=
  ⟨rfl, rfl, rfl, rfl, rfl, rfl⟩

/-- The reset value is zero at every entry. -/
theorem reset_apply (j : S2048x1024.Idx) : k0_pay1 (F := Ideal) j = 0 := by
  unfold k0_pay1
  rw [shapeCast_self]
  exact Ideal.ofBits_zero_f32

/-- The step at entry (p, q): the accumulator there plus the stretch's partial product. -/
theorem step_apply (x : Vec Ideal S2048x256 .f32) (w mk : Vec Ideal S1024x256 .f32) (acc : Vec Ideal S2048x1024 .f32)
    (p : Fin 2048) (q : Fin 1024) :
    k0_pay2 x w mk acc (ix2 p q)
      = acc (ix2 p q) + ∑ kk : Fin 256, x (ix2 p kk) * (w (ix2 q kk) * mk (ix2 q kk)) := by
  unfold k0_pay2
  rw [shapeCast_self]
  refine (addf_apply _ _ (ix2 p q)).trans ?_
  refine congrArg (acc (ix2 p q) + ·) ?_
  exact dot_rowsRows.matmul_zero_apply none _ _ (ix2 p q)

/-- The output value at entry (p, q): the accumulator there plus the bias at column q. -/
theorem out_apply (acc : Vec Ideal S2048x1024 .f32) (b : Vec Ideal S1x1024 .f32) (p : Fin 2048) (q : Fin 1024) :
    k0_pay3 acc b (ix2 p q) = acc (ix2 p q) + b (ix2 (0 : Fin 1) q) := by
  unfold k0_pay3
  rw [shapeCast_self]
  refine (addf_apply _ _ (ix2 p q)).trans ?_
  refine congrArg (acc (ix2 p q) + ·) ?_
  refine broadcastTo_apply b broadcasts_S1x1024_S2048x1024 (ix2 p q) (ix2 (0 : Fin 1) q) fun a => ?_
  match a with
  | ⟨0, _⟩ => rfl
  | ⟨1, _⟩ => rfl

end Cert.KernelIdeal.Step

end
-- ==== Proof.Spec.lean ====
/-
  The masked linear layer as one function of its four arrays, and the one law of sums the proof needs.

  For x : [16384, 4096], w and mask : [4096, 4096], b : [4096] the layer's entry (r, o) is
      (∑ q < 4096, x (r, q) · (w (o, q) · mask (o, q))) + b (o).
  A computation that walks the shared axis in 16 consecutive stretches of 256 positions, adding each stretch's partial
  sum to a running total that starts at zero, reaches the same extended real: addition of extended reals is
  commutative and associative with unit 0, so a sum over 4096 positions is the sum over the 16 stretches of the sums
  over their 256 positions.  No finiteness of the entries is used.
-/
import Idealize.ShloMosaic.PureOps.Ideal
import Idealize.ShloMosaic.Lib.ValueIdx
import Mathlib.Algebra.BigOperators.Fin
import Mathlib.Logic.Equiv.Fin.Basic

noncomputable section

open scoped BigOperators

namespace Cert.MaskedLinear

open Idealize.ShloMosaic Idealize.ShloMosaic.ValueIdx

/-- Position `kk` of stretch `s` of the shared axis: `(s mod 16) · 256 + kk`. The stretch number is reduced mod 16
    so that the position is defined for every natural `s`. -/
def pos (s : Nat) (kk : Fin 256) : Fin 4096 :=
  ⟨(s % 16) * 256 + kk.val, by have := Nat.mod_lt s (by norm_num : 0 < 16); have := kk.isLt; omega⟩

theorem pos_val (s : Nat) (kk : Fin 256) : (pos s kk).val = (s % 16) * 256 + kk.val := rfl

/-- Row p of the row block that grid point n works on: the points are numbered with the stretch fastest, then the
    four column blocks, then the eight row blocks, so the row block is `(n / 64) mod 8`. -/
def rowOf (n : Nat) (p : Fin 2048) : Fin 16384 :=
  ⟨2048 * (n / 64 % 8) + p.val, by have := Nat.mod_lt (n / 64) (by norm_num : 0 < 8); have := p.isLt; omega⟩

/-- Column q of the column block that grid point n works on: column block `(n / 16) mod 4`. -/
def colOf (n : Nat) (q : Fin 1024) : Fin 4096 :=
  ⟨1024 * (n / 16 % 4) + q.val, by have := Nat.mod_lt (n / 16) (by norm_num : 0 < 4); have := q.isLt; omega⟩

theorem rowOf_val (n : Nat) (p : Fin 2048) : (rowOf n p).val = 2048 * (n / 64 % 8) + p.val := rfl
theorem colOf_val (n : Nat) (q : Fin 1024) : (colOf n q).val = 1024 * (n / 16 % 4) + q.val := rfl

/-- A sum over the 4096 positions of the shared axis is the sum over its 16 stretches of the sums over each
    stretch's 256 positions, in any commutative monoid. -/
theorem sum_stretches {β : Type*} [AddCommMonoid β] (f : Fin 4096 → β) :
    ∑ s ∈ Finset.range 16, ∑ kk : Fin 256, f (pos s kk) = ∑ q : Fin 4096, f q := by
  rw [Finset.sum_range (fun s => ∑ kk : Fin 256, f (pos s kk))]
  have e : ∑ q : Fin 4096, f q = ∑ p : Fin 16 × Fin 256, f (finProdFinEquiv p) :=
    (Equiv.sum_comp (finProdFinEquiv (m := 16) (n := 256)) f).symm
  rw [e, Fintype.sum_prod_type]
  refine Finset.sum_congr rfl fun s _ => Finset.sum_congr rfl fun kk _ => congrArg f (Fin.ext ?_)
  show (s.val % 16) * 256 + kk.val = kk.val + 256 * s.val
  have := s.isLt
  rw [Nat.mod_eq_of_lt this]; omega

/-- The masked linear layer: entry (r, o) is the product of row r of `x` with row o of `w · mask`, plus `b o`. -/
def layer (x : (⟨2, ![16384, 4096]⟩ : Shape).Idx → EReal) (w mk : (⟨2, ![4096, 4096]⟩ : Shape).Idx → EReal)
    (b : (⟨1, ![4096]⟩ : Shape).Idx → EReal) : (⟨2, ![16384, 4096]⟩ : Shape).Idx → EReal :=
  fun i => (∑ q : Fin 4096, x (ix2 (i 0) q) * (w (ix2 (i 1) q) * mk (ix2 (i 1) q))) + b (ix1 (i 1))

end Cert.MaskedLinear

end
-- ==== Proof.Blocks.lean ====
/-
  The blocks a grid point works on, as entries of the arrays.

  Grid point t (numbered with the stretch of the shared axis fastest, then the column block, then the row block) reads
  the [2048, 256] block of x at row block (t / 64) mod 8 and stretch t mod 16, the [1024, 256] blocks of w and of mask
  at column block (t / 16) mod 4 and the same stretch, and the [1, 1024] block of the bias row at that column block;
  the bias row is the bias vector viewed as [1, 4096].  Its output block is the [2048, 1024] block at that row block
  and column block.
-/
import proofs.«123429_j52209622450452_1_alg».proof.Proof.Gen.KernelIdeal.Frame
import proofs.«123429_j52209622450452_1_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.MaskedLinear

variable {F : FTy → Type} [FloatOps F]
variable (m : (ℓ : Loc nD τ sig) → Buf (Elt F) ℓ)

/-- The five index maps in closed form, decided over the grid's 512 points. -/
theorem idx_facts : ∀ t : Fin cfg0.N,
    win0_0.index t (0 : Fin 2) = t.val / 64 % 8 ∧ win0_0.index t (1 : Fin 2) = t.val % 16
    ∧ win0_1.index t (0 : Fin 2) = t.val / 16 % 4 ∧ win0_1.index t (1 : Fin 2) = t.val % 16
    ∧ win0_2.index t (0 : Fin 2) = t.val / 16 % 4 ∧ win0_2.index t (1 : Fin 2) = t.val % 16
    ∧ win0_3.index t (0 : Fin 2) = 0 ∧ win0_3.index t (1 : Fin 2) = t.val / 16 % 4
    ∧ win0_4.index t (0 : Fin 2) = t.val / 64 % 8 ∧ win0_4.index t (1 : Fin 2) = t.val / 16 % 4 :=
  (by decide +kernel : ∀ t : Fin grid0.N, _)

/-- The arrays as the region finds them, at their literal types. -/
abbrev xarr (c : Dev nD) : Vec F S16384x4096 .f32 := V m c main_arg0
abbrev warr (c : Dev nD) : Vec F S4096x4096 .f32 := V m c main_arg1
abbrev marr (c : Dev nD) : Vec F S4096x4096 .f32 := V m c main_arg3
abbrev brow (c : Dev nD) : Vec F S1x4096 .f32 := V m c main_v0
abbrev barr (c : Dev nD) : Vec F S4096 .f32 := V m c main_arg2

/-- The input blocks at a point, at their literal types. -/
abbrev xblk (c : Dev nD) (t : Fin cfg0.N) : Vec F S2048x256 .f32 := iblk m c 0 t
abbrev wblk (c : Dev nD) (t : Fin cfg0.N) : Vec F S1024x256 .f32 := iblk m c 1 t
abbrev mblk (c : Dev nD) (t : Fin cfg0.N) : Vec F S1024x256 .f32 := iblk m c 2 t
abbrev bblk (c : Dev nD) (t : Fin cfg0.N) : Vec F S1x1024 .f32 := iblk m c 3 t

/-- The x block's entry (p, kk) is x at (row p of the point's row block, position kk of its stretch). -/
theorem xblk_apply (c : Dev nD) (t : Fin cfg0.N) (p : Fin 2048) (kk : Fin 256) :
    xblk m c t (ix2 p kk) = xarr m c (ix2 (rowOf t.val p) (pos t.val kk)) := by
  obtain ⟨e0, e1, -⟩ := idx_facts t
  show V m c main_arg0 (((cfg0.win 0).blk t).view.emb (ix2 p kk)) = V m c main_arg0 _
  refine congrArg _ (funext fun a => Fin.ext ?_)
  match a with
  | ⟨0, _⟩ => show win0_0.index t (0 : Fin 2) * 2048 + 1 * p.val = 2048 * (t.val / 64 % 8) + p.val; rw [e0]; omega
  | ⟨1, _⟩ => show win0_0.index t (1 : Fin 2) * 256 + 1 * kk.val = t.val % 16 * 256 + kk.val; rw [e1]; omega

/-- The w block's entry (q, kk) is w at (column q of the point's column block, position kk of its stretch). -/
theorem wblk_apply (c : Dev nD) (t : Fin cfg0.N) (q : Fin 1024) (kk : Fin 256) :
    wblk m c t (ix2 q kk) = warr m c (ix2 (colOf t.val q) (pos t.val kk)) := by
  obtain ⟨-, -, e0, e1, -⟩ := idx_facts t
  show V m c main_arg1 (((cfg0.win 1).blk t).view.emb (ix2 q kk)) = V m c main_arg1 _
  refine congrArg _ (funext fun a => Fin.ext ?_)
  match a with
  | ⟨0, _⟩ => show win0_1.index t (0 : Fin 2) * 1024 + 1 * q.val = 1024 * (t.val / 16 % 4) + q.val; rw [e0]; omega
  | ⟨1, _⟩ => show win0_1.index t (1 : Fin 2) * 256 + 1 * kk.val = t.val % 16 * 256 + kk.val; rw [e1]; omega

/-- The mask block likewise. -/
theorem mblk_apply (c : Dev nD) (t : Fin cfg0.N) (q : Fin 1024) (kk : Fin 256) :
    mblk m c t (ix2 q kk) = marr m c (ix2 (colOf t.val q) (pos t.val kk)) := by
  obtain ⟨-, -, -, -, e0, e1, -⟩ := idx_facts t
  show V m c main_arg3 (((cfg0.win 2).blk t).view.emb (ix2 q kk)) = V m c main_arg3 _
  refine congrArg _ (funext fun a => Fin.ext ?_)
  match a with
  | ⟨0, _⟩ => show win0_2.index t (0 : Fin 2) * 1024 + 1 * q.val = 1024 * (t.val / 16 % 4) + q.val; rw [e0]; omega
  | ⟨1, _⟩ => show win0_2.index t (1 : Fin 2) * 256 + 1 * kk.val = t.val % 16 * 256 + kk.val; rw [e1]; omega

/-- The bias row the region finds is the bias vector viewed as one row. -/
theorem brow_eq (c : Dev nD) : brow m c = shapeCast S1x4096 (barr m c) shapeCasts_S4096_S1x4096 := by
  show V m c main_v0 = shapeCast S1x4096 (V m c main_arg2) shapeCasts_S4096_S1x4096
  rw [V_main_arg2]
  dsimp only [V, hostOps0]
  after_results
  rfl

/-- The bias block's entry (0, q) is the bias at column q of the point's column block. -/
theorem bblk_apply (c : Dev nD) (t : Fin cfg0.N) (q : Fin 1024) :
    bblk m c t (ix2 (0 : Fin 1) q) = barr m c (ix1 (colOf t.val q)) := by
  obtain ⟨-, -, -, -, -, -, e0, e1, -⟩ := idx_facts t
  show brow m c (((cfg0.win 3).blk t).view.emb (ix2 (0 : Fin 1) q)) = _
  rw [brow_eq]
  refine shapeCast_apply _ _ _ (ix1 (colOf t.val q)) ?_
  rw [Shape.rowMajor_val_one, Shape.rowMajor_val_two]
  show 1024 * (t.val / 16 % 4) + q.val = (win0_3.index t (0 : Fin 2) * 1 + 1 * 0) * 4096 + (win0_3.index t (1 : Fin 2) * 1024 + 1 * q.val)
  rw [e0, e1]; omega

end Cert.KernelIdeal.Blocks

end
-- ==== Proof.Fold.lean ====
/-
  What the accumulator holds after each grid point, at the ideal instance.

  Within a run of 16 points (one row block, one column block, the 16 stretches of the shared axis in order) the first
  point leaves 0 + its stretch's partial product and each later point adds its own: so after the point at offset j of
  its run, entry (p, q) of the accumulator is 0 plus the sum of the partial products of stretches 0 … j.
-/
import proofs.«123429_j52209622450452_1_alg».proof.Proof.Gen.KernelIdeal.Value
import proofs.«123429_j52209622450452_1_alg».proof.Proof.Pieces
import proofs.«123429_j52209622450452_1_alg».proof.Proof.Payloads
import proofs.«123429_j52209622450452_1_alg».proof.Proof.Blocks
import proofs.«123429_j52209622450452_1_alg».proof.Proof.Spec

noncomputable section

open scoped BigOperators

namespace Cert.KernelIdeal.Fold

open Cert.KernelIdeal Cert.KernelIdeal.Gen Cert.KernelIdeal.Value Cert.KernelIdeal.Blocks
open Idealize.ShloMosaic Idealize.ShloMosaic.TcCoe Idealize.SL.Sem
open Idealize.ShloMosaic.ValueIdx Cert.MaskedLinear

variable (m : (ℓ : Loc nD τ sig) → Buf (Elt Ideal) ℓ)

/-- Grid point n's partial product at entry (p, q) of its block: over the 256 positions of its stretch, x at the
    point's row p times (w · mask) at the point's column q. -/
def addend (c : Dev nD) (n : ℕ) (p : Fin 2048) (q : Fin 1024) : EReal :=
  ∑ kk : Fin 256, xarr m c (ix2 (rowOf n p) (pos n kk))
    * (warr m c (ix2 (colOf n q) (pos n kk)) * marr m c (ix2 (colOf n q) (pos n kk)))

/-- The step's partial product over a point's blocks is the point's addend. -/
theorem blocks_sum (c : Dev nD) (t : Fin cfg0.N) (p : Fin 2048) (q : Fin 1024) :
    ∑ kk : Fin 256, xblk m c t (ix2 p kk) * (wblk m c t (ix2 q kk) * mblk m c t (ix2 q kk)) = addend m c t.val p q :=
  Finset.sum_congr rfl fun kk _ => by rw [xblk_apply, wblk_apply, mblk_apply]

/-- At the first point of a run the accumulator is reset: it ends at 0 plus the point's addend, whatever it held. -/
theorem scAt_reset (c : Dev nD) (n : ℕ) (hb : n < cfg0.N) (h0 : n % 16 = 0) (acc : Vec Ideal S2048x1024 .f32)
    (p : Fin 2048) (q : Fin 1024) :
    scAt0_0 m c n hb acc (ix2 p q) = 0 + addend m c n p q := by
  have h1 : ¬n % 16 = 15 := by omega
  unfold scAt0_0
  rw [dif_pos h0, dif_neg h1]
  refine (congrFun (Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) (ix2 p q)).trans ?_
  refine (Step.step_apply (xblk m c (⟨n, hb⟩ : Fin cfg0.N)) (wblk m c (⟨n, hb⟩ : Fin cfg0.N)) (mblk m c (⟨n, hb⟩ : Fin cfg0.N)) (k0_pay1 (F := Ideal)) p q).trans ?_
  rw [Step.reset_apply, blocks_sum]

/-- At every later point of a run it ends at what it held plus the point's addend. -/
theorem scAt_step (c : Dev nD) (n : ℕ) (hb : n < cfg0.N) (h0 : ¬n % 16 = 0) (acc : Vec Ideal S2048x1024 .f32)
    (p : Fin 2048) (q : Fin 1024) :
    scAt0_0 m c n hb acc (ix2 p q) = acc (ix2 p q) + addend m c n p q := by
  unfold scAt0_0
  rw [dif_neg h0]
  by_cases h1 : n % 16 = 15
  · rw [dif_pos h1]
    refine (congrFun (Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p q)).trans ?_
    refine (Step.step_apply (xblk m c (⟨n, hb⟩ : Fin cfg0.N)) (wblk m c (⟨n, hb⟩ : Fin cfg0.N)) (mblk m c (⟨n, hb⟩ : Fin cfg0.N)) acc p q).trans ?_
    rw [blocks_sum]
  · rw [dif_neg h1]
    refine (congrFun (Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p q)).trans ?_
    refine (Step.step_apply (xblk m c (⟨n, hb⟩ : Fin cfg0.N)) (wblk m c (⟨n, hb⟩ : Fin cfg0.N)) (mblk m c (⟨n, hb⟩ : Fin cfg0.N)) acc p q).trans ?_
    rw [blocks_sum]

/-- After point t the accumulator's entry (p, q) is 0 plus the addends of its run's points up to t. -/
theorem scratch_after (c : Dev nD) (t : Fin cfg0.N) (p : Fin 2048) (q : Fin 1024) :
    (outsAt0 m c t.val t.isLt).2 (ix2 p q)
      = 0 + ∑ s ∈ Finset.range (t.val % 16 + 1), addend m c (16 * (t.val / 16) + s) p q := by
  refine (congrFun (soutsAt0_0_eq m c t) (ix2 p q)).trans ?_
  exact Pipeline.accAt_add_apply (fun n h => scAt0_0 m c n h (VS0_0.read (Elt Ideal) VS0_0.junk)) (scAt0_0 m c)
    (fun _ => (0 : EReal)) (fun n i => addend m c n (i 0) (i 1)) (16 * (t.val / 16)) 15
    (fun h i => by
      obtain ⟨p, q, rfl⟩ : ∃ (p : Fin 2048) (q : Fin 1024), i = ix2 p q := ⟨i 0, i 1, eq_ix2 i⟩
      exact scAt_reset m c _ h (by omega) _ p q)
    (fun n h acc i hlt hle => by
      obtain ⟨p, q, rfl⟩ : ∃ (p : Fin 2048) (q : Fin 1024), i = ix2 p q := ⟨i 0, i 1, eq_ix2 i⟩
      exact scAt_step m c n h (by omega) acc p q)
    (t.val % 16) (by omega) _ (ix2 p q)

end Cert.KernelIdeal.Fold

end
-- ==== Proof.Final.lean ====
/-
  The kernel's result array is the masked linear layer.

  The output block is written back only at the last point of each run of 16.  There the body stores the accumulator
  plus the bias block; the accumulator is 0 plus the 16 stretches' partial products (the fold of the run), and a sum
  over the 16 stretches of the sums over their 256 positions is the sum over the 4096 positions of the shared axis: so
  the block written back is the layer's block at the run's row block and column block.  The 32 flushing points' blocks
  tile the [16384, 4096] array, so the array ends at the layer.
-/
import proofs.«123429_j52209622450452_1_alg».proof.Proof.Fold

noncomputable section

open scoped BigOperators

namespace Cert.KernelIdeal.Final

open Cert.KernelIdeal Cert.KernelIdeal.Gen Cert.KernelIdeal.Value Cert.KernelIdeal.Blocks
open Idealize.ShloMosaic Idealize.ShloMosaic.TcCoe Idealize.SL.Sem
open Idealize.ShloMosaic.ValueIdx Cert.MaskedLinear
open Idealize.ShloMosaic.Pipeline (Dat)

variable (m : (ℓ : Loc nD τ sig) → Buf (Elt Ideal) ℓ) (ρ : Dev nD → PrngReg)

/-- The layer of the arrays the region finds. -/
abbrev result (c : Dev nD) : Vec Ideal S16384x4096 .f32 := layer (xarr m c) (warr m c) (marr m c) (barr m c)

/-- At the last point of a run the output block holds the output value of the accumulator the point has just
    written and the point's bias block. -/
theorem out_eq (c : Dev nD) (t : Fin cfg0.N) (h0 : ¬t.val % 16 = 0) (h1 : t.val % 16 = 15) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
      = k0_pay3 ((outsAt0 m c t.val t.isLt).2) (bblk m c t) := by
  have e2 : (outsAt0 m c t.val t.isLt).2 = k0_pay2 (iblk m c 0 t) (iblk m c 1 t) (iblk m c 2 t) (outsAt0 m c (t.val - 1) (Nat.lt_of_le_of_lt (Nat.sub_le _ _) t.isLt)).2 := by
    rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  rw [e2]
  exact Pieces.output_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- The 16 addends of a run sum to the whole product over the shared axis. -/
theorem run_sum (c : Dev nD) (t : Fin cfg0.N) (p : Fin 2048) (q : Fin 1024) :
    ∑ s ∈ Finset.range 16, Fold.addend m c (16 * (t.val / 16) + s) p q
      = ∑ k : Fin 4096, xarr m c (ix2 (rowOf t.val p) k)
          * (warr m c (ix2 (colOf t.val q) k) * marr m c (ix2 (colOf t.val q) k)) := by
  rw [← sum_stretches fun k => xarr m c (ix2 (rowOf t.val p) k)
          * (warr m c (ix2 (colOf t.val q) k) * marr m c (ix2 (colOf t.val q) k))]
  refine Finset.sum_congr rfl fun s hs => ?_
  have hs' : s < 16 := Finset.mem_range.mp hs
  unfold Fold.addend
  refine Finset.sum_congr rfl fun kk _ => ?_
  have er : rowOf (16 * (t.val / 16) + s) p = rowOf t.val p := Fin.ext (by rw [rowOf_val, rowOf_val]; omega)
  have ec : colOf (16 * (t.val / 16) + s) q = colOf t.val q := Fin.ext (by rw [colOf_val, colOf_val]; omega)
  have ep : pos (16 * (t.val / 16) + s) kk = pos s kk := Fin.ext (by rw [pos_val, pos_val]; omega)
  rw [er, ec, ep]

/-- So the value stored at the last point of a run, at entry (p, q), is the layer at the run's row p and column q. -/
theorem out_apply (c : Dev nD) (t : Fin cfg0.N) (h1 : t.val % 16 = 15) (p : Fin 2048) (q : Fin 1024) :
    k0_pay3 ((outsAt0 m c t.val t.isLt).2) (bblk m c t) (ix2 p q)
      = result m c (ix2 (rowOf t.val p) (colOf t.val q)) := by
  have h16 : t.val % 16 + 1 = 16 := by omega
  refine (Step.out_apply _ _ p q).trans ?_
  rw [Fold.scratch_after, bblk_apply, h16, run_sum, zero_add]
  rfl

/-- What a flushing point writes back is its block of the layer. -/
theorem flushed_eq (c : Dev nD) (t : Fin cfg0.N) (hf : (cfg0.win 4).flush t = true) :
    (dats m 0 c).flushed 4 t = ((cfg0.win 4).blk t).view.read (Elt Ideal) (result m c) := by
  have h1 : t.val % 16 = 15 := (flush0_4 t).mp hf
  have h0 : ¬t.val % 16 = 0 := by omega
  rw [flushed4_C m c t h0 h1, out_eq m c t h0 h1]
  obtain ⟨-, -, -, -, -, -, -, -, e0, e1⟩ := idx_facts t
  funext j
  have hp : (j 0).val < 2048 := (j 0).isLt
  have hq : (j 1).val < 1024 := (j 1).isLt
  have hy : (cfg0.win 4).xinj (grid0.coords t) j = ix2 (⟨(j 0).val, hp⟩ : Fin 2048) (⟨(j 1).val, hq⟩ : Fin 1024) :=
    funext fun a => by match a with | ⟨0, _⟩ => rfl | ⟨1, _⟩ => rfl
  show k0_pay3 ((outsAt0 m c t.val t.isLt).2) (bblk m c t) ((cfg0.win 4).xinj (grid0.coords t) j)
    = result m c (((cfg0.win 4).blk t).view.emb j)
  rw [hy, out_apply m c t h1]
  refine congrArg _ (funext fun a => Fin.ext ?_)
  match a with
  | ⟨0, _⟩ => show 2048 * (t.val / 64 % 8) + (j 0).val = win0_4.index t (0 : Fin 2) * 2048 + 1 * (j 0).val; rw [e0]; omega
  | ⟨1, _⟩ => show 1024 * (t.val / 16 % 4) + (j 1).val = win0_4.index t (1 : Fin 2) * 1024 + 1 * (j 1).val; rw [e1]; omega

/-- An entry of the array is in point t's output block iff each coordinate is in the block's range on its axis. -/
theorem mem_blk (t : Fin cfg0.N) (i : S16384x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v1).slice (win0_4.rect t)).set ↔ _
  rw [View.set_slice_whole, Rect.mem_set_unit]
  exact Iff.rfl

/-- Every entry of the array lies in the output block of the last point of some run. -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 512 := N_0
  let t : Fin cfg0.N := ⟨64 * ((i 0).val / 2048) + 16 * ((i 1).val / 1024) + 15, by rw [hN]; omega⟩
  have htv : t.val = 64 * ((i 0).val / 2048) + 16 * ((i 1).val / 1024) + 15 := rfl
  obtain ⟨-, -, -, -, -, -, -, -, e0, e1⟩ := idx_facts t
  refine ⟨t, (flush0_4 t).mpr (by rw [htv]; omega), ?_⟩
  rw [mem_blk]
  intro a
  match a with
  | ⟨0, _⟩ =>
    show win0_4.index t (0 : Fin 2) * 2048 ≤ (i 0).val ∧ (i 0).val < win0_4.index t (0 : Fin 2) * 2048 + 2048
    rw [e0, htv]; omega
  | ⟨1, _⟩ =>
    show win0_4.index t (1 : Fin 2) * 1024 ≤ (i 1).val ∧ (i 1).val < win0_4.index t (1 : Fin 2) * 1024 + 1024
    rw [e1, htv]; omega

/-- The result array after the run is the layer of the arrays the region finds. -/
theorem final (c : Dev nD) : (dats m 0 c).arrAt 4 cfg0.N = result m c :=
  (dats m 0 c).arrAt_eq_of_cover 4 (result m c) (flushed_eq m c) cover

/-- The kernel's run: the result array at the layer of the launch contents of x, w, mask and the bias; the arguments
    unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1))
            (m ((c : Thread nD τ).loc main_arg3)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      show layer (V m c main_arg0) (V m c main_arg1) (V m c main_arg3) (V m c main_arg2) = _
      rw [V_main_arg0, V_main_arg1, V_main_arg2, V_main_arg3])), (h c).2⟩)
    (run_blocks m ρ)

end Cert.KernelIdeal.Final

end
-- ==== Proof.RefLayer.lean ====
/-
  The reference computes the masked linear layer.

  Read one operation at a time, entry (r, o) of the reference's result is the sum over the 4096 positions q of the shared
  axis of x (r, q) times the entry (o, q) of the elementwise product w · mask, plus the bias broadcast first to a
  [1, 4096] row and then down the 16384 rows, that is b (o).
-/
import proofs.«123429_j52209622450452_1_alg».proof.Proof.Gen.ReferenceIdeal.Read
import proofs.«123429_j52209622450452_1_alg».proof.Proof.Spec

noncomputable section

open scoped BigOperators

namespace Cert.ReferenceIdeal.RefValue

open Cert.ReferenceIdeal Cert.ReferenceIdeal.Read Idealize.ShloMosaic Idealize.ShloMosaic.ValueIdx Cert.MaskedLinear

/-- The product's left operand index at entry i and position k is (row of i, k). -/
theorem lidx_eq (i : S16384x4096.Idx) (k : Fin 4096) : lidx_main_v1 i k = ix2 (i 0) k :=
  funext fun a => Fin.ext (by match a with | ⟨0, _⟩ => rfl | ⟨1, _⟩ => rfl)

/-- Its right operand index is (column of i, k). -/
theorem ridx_eq (i : S16384x4096.Idx) (k : Fin 4096) : ridx_main_v1 i k = ix2 (i 1) k :=
  funext fun a => Fin.ext (by match a with | ⟨0, _⟩ => rfl | ⟨1, _⟩ => rfl)

/-- Through the two broadcasts the bias is read at the column of i. -/
theorem bias_idx (i : S16384x4096.Idx) : idx_main_v2 (idx_main_v3 i) = ix1 (i 1) :=
  funext fun a => Fin.ext (by match a with | ⟨0, _⟩ => rfl)

/-- The reference's result, as a function of its four arguments, is the masked linear layer. -/
theorem reference_eq_layer (x0 : FVec Ideal S16384x4096 .f32) (x1 : FVec Ideal S4096x4096 .f32) (x2 : FVec Ideal S4096 .f32)
    (x3 : FVec Ideal S4096x4096 .f32) :
    val_main_v4 (F := Ideal) x0 x1 x2 x3 = layer x0 x1 x3 x2 := by
  funext i
  rw [val_main_v4_apply, val_main_v1_apply, val_main_v3_apply, val_main_v2_apply]
  simp only [val_main_v0_apply, lidx_eq, ridx_eq, bias_idx]
  rfl

end Cert.ReferenceIdeal.RefValue

end
-- ==== Proof.lean ====
/-
  A masked linear layer, tiled, against its one-line reference: out = x · (w ∘ mask)ᵀ + b over the extended reals.

  The kernel walks a grid of 8 row blocks × 4 column blocks × 16 stretches of the shared axis.  For each row block and
  column block it keeps a [2048, 1024] accumulator across the 16 stretches: zeroed at the first, increased at each by the
  product of the x block (narrowed to bf16, the identity on extended reals) with the elementwise product of the w and
  mask blocks, and at the last written out with the bias row added.  The reference multiplies w and mask elementwise,
  contracts x with the product over the whole shared axis of 4096 positions, and adds the bias broadcast over the rows.

  Both are, at entry (r, o),  (∑ q < 4096, x (r, q) · (w (o, q) · mask (o, q))) + b (o):  the reference by reading its
  five operations at an entry; the kernel because the accumulator's fold over a run is 0 plus the 16 partial sums, and a
  sum over 16 consecutive stretches of 256 positions is the sum over the 4096 positions, addition of extended reals
  being commutative and associative with unit 0.  The inputs' finiteness is not needed.

  The three frames are the generated runs; the ideal pass rewrote nothing, so the kernel's idealization is its own text.
-/
import proofs.«123429_j52209622450452_1_alg».proof.Defs
import proofs.«123429_j52209622450452_1_alg».proof.Proof.Gen.Kernel
import proofs.«123429_j52209622450452_1_alg».proof.Proof.Gen.Kernel.Skeleton
import proofs.«123429_j52209622450452_1_alg».proof.Proof.Gen.Kernel.Launch
import proofs.«123429_j52209622450452_1_alg».proof.Proof.Gen.Kernel.Points
import proofs.«123429_j52209622450452_1_alg».proof.Proof.Gen.Kernel.Frame
import proofs.«123429_j52209622450452_1_alg».proof.Proof.Gen.KernelIdeal
import proofs.«123429_j52209622450452_1_alg».proof.Proof.Gen.KernelIdeal.Skeleton
import proofs.«123429_j52209622450452_1_alg».proof.Proof.Gen.KernelIdeal.Launch
import proofs.«123429_j52209622450452_1_alg».proof.Proof.Gen.KernelIdeal.Points
import proofs.«123429_j52209622450452_1_alg».proof.Proof.Gen.KernelIdeal.Frame
import proofs.«123429_j52209622450452_1_alg».proof.Proof.Gen.ReferenceIdeal
import proofs.«123429_j52209622450452_1_alg».proof.Proof.Gen.KernelIdeal.Value
import proofs.«123429_j52209622450452_1_alg».proof.Proof.Gen.ReferenceIdeal.Run
import proofs.«123429_j52209622450452_1_alg».proof.Proof.Gen.ReferenceIdeal.Read
import proofs.«123429_j52209622450452_1_alg».proof.Proof.Gen.Pre_finite_inputs
import proofs.«123429_j52209622450452_1_alg».proof.Proof.Final
import proofs.«123429_j52209622450452_1_alg».proof.Proof.RefLayer
import Idealize.ShloMosaic.Adequacy
import Idealize.ShloMosaic.Init

noncomputable section

namespace Cert.Proof

open Idealize.ShloMosaic Idealize.SL.Sem Cert.MaskedLinear

/-- The kernel as printed runs and leaves its arguments unchanged. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree, the kernel's result array and the reference's both end at the masked linear layer of
    those arguments. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v4_eq _ _ _ _).trans
    (Cert.ReferenceIdeal.RefValue.reference_eq_layer _ _ _ _)).trans ?_
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
